-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x2048 .f32) (main_arg1 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8192x2048 : Shape := ⟨2, ![8192, 2048]⟩
abbrev S1024 : Shape := ⟨1, ![1024]⟩
abbrev S1x1024 : Shape := ⟨2, ![1, 1024]⟩
abbrev S8192x1025 : Shape := ⟨2, ![8192, 1025]⟩
abbrev S512x2048 : Shape := ⟨2, ![512, 2048]⟩
abbrev S512x1025 : Shape := ⟨2, ![512, 1025]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S1x1024, .f32⟩
  | .hbm, ⟨3, _⟩ => ⟨S8192x1025, .f32⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S512x1025, .f32⟩
  | .local _ .vmem, ⟨4, _⟩ => ⟨S512x1025, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  slices_S512x2048_o0_0_S512x1024 : S512x2048.Slices ![0, 0] S512x1024
  slices_S512x2048_o0_1024_S512x1024 : S512x2048.Slices ![0, 1024] S512x1024
  reduces_S512x1024_S512 : S512x1024.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  inb_S512x1025_S512x1_0_0 : ∀ a, (![0, 0] : Fin 2 → Nat) a + S512x1.size a ≤ S512x1025.size a
  h_S512x1 : 0 < S512x1.numel
  inb_S512x1025_S512x1024_0_1 : ∀ a, (![0, 1] : Fin 2 → Nat) a + S512x1024.size a ≤ S512x1025.size a
  h_S512x1024 : 0 < S512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1025.size a ≤ S8192x1025.size a
  hwx0_2 : ∀ i : grid0.Coords, EltTy.bits .f32 = 32 ∨ (Rect.block (s := S8192x1025) S512x1025.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1025.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1025 : Shape := ⟨2, ![8192, 1025]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1025, .f32⟩
  | .hbm, ⟨16, _⟩ => ⟨S_, .f32⟩
  | .hbm, ⟨17, _⟩ => ⟨S8192x1025, .f32⟩
  | .hbm, ⟨18, _⟩ => ⟨S8192x1025, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x1025, .f32⟩
  | .hbm, ⟨26, _⟩ => ⟨S8192x1025, .f32⟩
  | .hbm, ⟨27, _⟩ => ⟨S8192x1025, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x1025, .f32⟩
  | .hbm, ⟨32, _⟩ => ⟨S8192x1025, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S8192x2048_S8192x1024_0_0 : S8192x2048.Slices ![0, 0] S8192x1024
  slices_S8192x2048_S8192x1024_0_1024 : S8192x2048.Slices ![0, 1024] S8192x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  concatenates_S8192x1_S8192x1024_S8192x1025_d1 : Shape.Concatenates [S8192x1, S8192x1024] S8192x1025 1
  bcast_S_S8192x1025 : S_.BroadcastsInDim S8192x1025 (![] : Fin 0 → Fin S8192x1025.rank)
  reducesTo_S8192x1025_S8192_d1 : S8192x1025.ReducesTo [1] S8192
  bcast_S_S8192 : S_.BroadcastsInDim S8192 (![] : Fin 0 → Fin S8192.rank)
  bcast_S8192x1_S8192x1025_0_1 : S8192x1.BroadcastsInDim S8192x1025 (![0, 1] : Fin 2 → Fin S8192x1025.rank)

variable [Facts₀]

class Facts : Prop extends Facts₀ where

variable [Facts]
-- ==== Proof.FiniteInputs.lean ====
/-
  From the precondition to real numbers. The precondition says that every entry of both inputs has absolute
  value strictly below `+∞`: it is the conjunction of two "for all entries" reductions of the entrywise comparison
  `|a| < +∞`. On the extended reals `|a| = max a (-a)`, which is `+∞` exactly at `a = ±∞`; so an entry that passes
  the comparison is neither infinity, that is, it is a real number.
-/
import proofs.«113813_g38981123178868_cont_8to1_b_1868_2_alg».proof.Pre_finite_inputs
import Idealize.ShloMosaic.Lib.ReduceAll
import Idealize.ShloMosaic.Lib.IdealHost

noncomputable section

namespace Cert.FiniteInputs

open Idealize.ShloMosaic Cert.Pre_finite_inputs

/-- The shape with no axes has one index. -/
instance : Subsingleton S_.Idx := ⟨fun a b => funext fun d => d.elim0⟩

/-- The comparison's right-hand side is `+∞`. -/
theorem ofBits_inf : Ideal.ofBits .f32 0x7F800000#32 = ⊤ := by simp [Ideal.ofBits, Ideal.ieee]

/-- An ordered "less than" that answers one holds. -/
theorem lt_of_cmp_olt {u v : EReal} (h : Ideal.cmp .olt u v = 1#1) : u < v := by
  by_contra hn
  have e : Ideal.cmp .olt u v = BitVec.ofBool (decide (u < v)) := rfl
  rw [e, decide_eq_false hn] at h
  exact absurd h (by decide)

/-- An extended real whose absolute value is below `+∞` is a real number. -/
theorem real_of_abs_lt_top (a : EReal) (h : max a (-a) < ⊤) : ∃ r : ℝ, a = r := by
  induction a using EReal.rec with
  | bot => exact absurd h (by simp)
  | coe r => exact ⟨r, rfl⟩
  | top => exact absurd h (by simp)

/-- One entry: the comparison `|x i| < +∞` answering one makes `x i` real. -/
theorem entry_real {s : Shape} (x : FVec Ideal s .f32) (hb : S_.BroadcastsInDim s ![]) (i : s.Idx)
    (h : cmpf .olt (Host.absf x) (broadcastInDim s ![] hb (constant S_ .f32 0x7F800000#32)) i = 1#1) :
    ∃ r : ℝ, x i = r := by
  have h' : Ideal.cmp .olt (max (x i) (-(x i)))
      (broadcastInDim s ![] hb (constant (F := Ideal) S_ .f32 0x7F800000#32) i) = 1#1 := h
  rw [ValueIdx.broadcastInDim_scalar_apply] at h'
  have hlt := lt_of_cmp_olt h'
  rw [show constant (F := Ideal) S_ .f32 0x7F800000#32 ValueIdx.ix0 = Ideal.ofBits .f32 0x7F800000#32 from rfl,
    ofBits_inf] at hlt
  exact real_of_abs_lt_top _ hlt

/-- Under the precondition every entry of both inputs is a real number. -/
theorem reals_of_pre [hP : Cert.Pre_finite_inputs.Facts] (x : FVec Ideal S8192x2048 .f32) (w : FVec Ideal S1024 .f32)
    (h : Cert.Pre_finite_inputs.fn (F := Ideal) x w = fun _ => 1#1) :
    (∀ i, ∃ r : ℝ, x i = r) ∧ (∀ k, ∃ r : ℝ, w k = r) := by
  have h0 := congrFun h ValueIdx.ix0
  dsimp only [Cert.Pre_finite_inputs.fn] at h0
  obtain ⟨hx, hw⟩ := IntOp.andi_eq_one.1 h0
  exact ⟨fun i => entry_real x _ i (Host.reduce_andi_all _ _ _ _ _ hx i),
    fun k => entry_real w _ k (Host.reduce_andi_all _ _ _ _ _ hw k)⟩

end Cert.FiniteInputs

end
-- ==== Proof.RowSoftmax.lean ====
/-
  The mathematics of one output row, on the extended reals, with no program in sight.

  A row has one head logit `z1` and `n` tail logits `z2 k`. Its softmax is taken over the `n + 1` logits
  `z1, z2 0, …, z2 (n-1)`. Two arrangements of the same computation are compared:

  * the split arrangement keeps head and tail apart: the row maximum is `max (max over k of z2 k) z1`, the
    normalizer is `exp (z1 - m) + Σ k, exp (z2 k - m)`, and each entry is its exponential TIMES the reciprocal
    `1 / normalizer`;
  * the joined arrangement works on the row `Z` of `n + 1` logits (`Z 0 = z1`, `Z (k+1) = z2 k`), first dividing
    every logit by one (a temperature of one), taking `max ⊥ (max over j of Z j)`, summing all `n + 1`
    exponentials from zero, and DIVIDING each exponential by that sum.

  On the extended reals `x / 1 = x`, `max` and `+` are commutative and associative, so maximum and normalizer
  agree with no side condition. The one step that needs one is `a / S = a * (1 / S)`: it holds when `S ≠ 0`
  and fails at `S = 0` (there `0 / 0` and `0 * (1 / 0)` are different junk values). The normalizer is positive
  as soon as the head logit is a real number and no tail logit is `+∞`: then the maximum is below `+∞`, the
  head's exponent is not `-∞`, its exponential is positive, and the other exponentials are not negative.
-/
import Idealize.ShloMosaic.Lib.IdealHost
import Mathlib.Data.Finset.Fold

noncomputable section

namespace Cert.RowSoftmax

open Idealize.ShloMosaic

/-! ## The exponential is not negative, and positive off `-∞` -/

theorem exp_nonneg (x : EReal) : 0 ≤ Ideal.exp x := by
  induction x using EReal.rec with
  | bot => exact le_of_eq Ideal.exp_bot.symm
  | coe r => rw [Ideal.exp_coe]; exact_mod_cast (Real.exp_pos r).le
  | top => rw [Ideal.exp_top]; exact le_top

theorem exp_pos {x : EReal} (h : x ≠ ⊥) : 0 < Ideal.exp x := by
  induction x using EReal.rec with
  | bot => exact absurd rfl h
  | coe r => rw [Ideal.exp_coe]; exact_mod_cast Real.exp_pos r
  | top => rw [Ideal.exp_top]; exact EReal.zero_lt_top

/-! ## Division by one; the maximum over `n + 1` logits split at the head -/

/-- A temperature of one changes nothing, at the infinities too. -/
theorem div_one (x : EReal) : Ideal.div x 1 = x := by
  unfold Ideal.div; rw [if_neg one_ne_zero, inv_one, mul_one]

/-- The running maximum over `n + 1` entries is the head against the running maximum over the tail. -/
theorem fold_max_succ {n : ℕ} (b : EReal) (f : Fin (n + 1) → EReal) :
    (Finset.univ : Finset (Fin (n + 1))).fold max b f
      = max (f 0) ((Finset.univ : Finset (Fin n)).fold max b fun k => f k.succ) := by
  rw [Fin.univ_succ, Finset.fold_cons, Finset.fold_map]; rfl

/-- Taking the maximum once more against the value the running maximum started from changes nothing. -/
theorem max_init_fold {ι : Type} (s : Finset ι) (b : EReal) (f : ι → EReal) :
    max b (s.fold max b f) = s.fold max b f :=
  max_eq_right ((Finset.le_fold_max b).mpr (Or.inl le_rfl))

/-! ## The split arrangement -/

variable {n : ℕ}

/-- The row maximum: the tail's running maximum from `-∞`, against the head. -/
def rowMax (z1 : EReal) (z2 : Fin n → EReal) : EReal :=
  max ((Finset.univ : Finset (Fin n)).fold max ⊥ z2) z1

/-- The normalizer: the head's exponential plus the tail's. -/
def rowDen (z1 : EReal) (z2 : Fin n → EReal) : EReal :=
  Ideal.exp (z1 - rowMax z1 z2) + ∑ k : Fin n, Ideal.exp (z2 k - rowMax z1 z2)

/-- The head entry of the row's softmax. -/
def headOut (z1 : EReal) (z2 : Fin n → EReal) : EReal :=
  Ideal.exp (z1 - rowMax z1 z2) * Ideal.div 1 (rowDen z1 z2)

/-- The tail entries. -/
def tailOut (z1 : EReal) (z2 : Fin n → EReal) (k : Fin n) : EReal :=
  Ideal.exp (z2 k - rowMax z1 z2) * Ideal.div 1 (rowDen z1 z2)

/-- With no logit at `+∞` the row maximum is below `+∞`. -/
theorem rowMax_lt_top {z1 : EReal} {z2 : Fin n → EReal} (h1 : z1 ≠ ⊤) (h2 : ∀ k, z2 k ≠ ⊤) :
    rowMax z1 z2 < ⊤ := by
  unfold rowMax
  exact max_lt ((Finset.fold_max_lt ⊤).mpr ⟨bot_lt_top, fun k _ => lt_top_iff_ne_top.mpr (h2 k)⟩)
    (lt_top_iff_ne_top.mpr h1)

/-- So, the head being a real number, the normalizer is positive: the head's exponent is not `-∞`. -/
theorem rowDen_pos {z1 : EReal} {z2 : Fin n → EReal} (hb : z1 ≠ ⊥) (h1 : z1 ≠ ⊤) (h2 : ∀ k, z2 k ≠ ⊤) :
    0 < rowDen z1 z2 := by
  unfold rowDen
  have hm : rowMax z1 z2 ≠ ⊤ := (rowMax_lt_top h1 h2).ne
  have he : z1 - rowMax z1 z2 ≠ ⊥ := by
    rw [sub_eq_add_neg]
    intro e
    rcases EReal.add_eq_bot_iff.mp e with e | e
    · exact hb e
    · exact hm (by simpa using e)
  exact add_pos_of_pos_of_nonneg (exp_pos he) (Finset.sum_nonneg fun k _ => exp_nonneg _)

/-! ## The joined arrangement is the split one -/

/-- The joined row's maximum (each logit first divided by one, the maximum taken once more against `-∞`) is the
    split row's. -/
theorem joined_max (Z : Fin (n + 1) → EReal) :
    max ⊥ ((Finset.univ : Finset (Fin (n + 1))).fold max ⊥ fun j => Ideal.div (Z j) 1)
      = rowMax (Z 0) fun k => Z k.succ := by
  rw [max_init_fold]
  simp only [div_one]
  rw [fold_max_succ, max_comm]; rfl

/-- The joined row's sum of all `n + 1` exponentials from zero is the split row's normalizer. -/
theorem joined_den (Z : Fin (n + 1) → EReal) (m : EReal) (hm : m = rowMax (Z 0) fun k => Z k.succ) :
    0 + ∑ j : Fin (n + 1), Ideal.exp (Ideal.div (Z j) 1 - m) = rowDen (Z 0) fun k => Z k.succ := by
  subst hm
  simp only [div_one]
  rw [zero_add, Fin.sum_univ_succ]; rfl

/-- THE LAW: entry `j` of the joined arrangement — the exponential of the logit less the maximum, DIVIDED by the sum
    of all the exponentials — is the split arrangement's entry: the head's at `j = 0`, tail entry `k` at `j = k + 1`. -/
theorem joined_eq_split (Z : Fin (n + 1) → EReal) (hb : Z 0 ≠ ⊥) (h1 : Z 0 ≠ ⊤) (h2 : ∀ k : Fin n, Z k.succ ≠ ⊤)
    (m S : EReal)
    (hm : m = max ⊥ ((Finset.univ : Finset (Fin (n + 1))).fold max ⊥ fun j => Ideal.div (Z j) 1))
    (hS : S = 0 + ∑ j : Fin (n + 1), Ideal.exp (Ideal.div (Z j) 1 - m)) (j : Fin (n + 1)) :
    Ideal.div (Ideal.exp (Ideal.div (Z j) 1 - m)) S
      = Fin.cases (headOut (Z 0) fun k => Z k.succ) (tailOut (Z 0) fun k => Z k.succ) j := by
  have em : m = rowMax (Z 0) fun k => Z k.succ := hm.trans (joined_max Z)
  have eS : S = rowDen (Z 0) fun k => Z k.succ := hS.trans (joined_den Z m em)
  have hne : S ≠ 0 := by rw [eS]; exact (rowDen_pos hb h1 h2).ne'
  rw [← Ideal.mul_one_div hne, div_one, eS, em]
  refine Fin.cases ?_ (fun k => ?_) j
  · rfl
  · rfl

end Cert.RowSoftmax

end
-- ==== Proof.RowLogits.lean ====
/-
  The logits of an output row as functions of the two inputs, and the whole output as ONE function of the inputs.

  The first input `x` has 8192 rows of 2048 entries; a row is read as a left half `Q` (columns 0 … 1023) and a right
  half `Y` (columns 1024 … 2047). With `p k = Q k * Y k` the row's head logit is `1 - Σ k, p k` and its tail logits
  are `p k * w k` for the second input `w` (1024 weights). The output has 8192 rows of 1025 entries: row `r` is the
  softmax of that row's 1025 logits, head first (Proof/RowSoftmax.lean's split arrangement).

  When every input entry is a real number so is every logit: products, finite sums and differences of real numbers
  are real. That is all the softmax law asks of the logits.
-/
import proofs.«113813_g38981123178868_cont_8to1_b_1868_2_alg».proof.Proof.RowSoftmax
import Idealize.ShloMosaic.Lib.ValueIdx

noncomputable section

namespace Cert.RowLogits

open Idealize.ShloMosaic Idealize.ShloMosaic.ValueIdx Cert.RowSoftmax

/-- Column `k` of the left half of an input row. -/
abbrev lo (k : Fin 1024) : Fin 2048 := ⟨k.val, by have := k.isLt; omega⟩
/-- Column `k` of the right half. -/
abbrev hi (k : Fin 1024) : Fin 2048 := ⟨1024 + k.val, by have := k.isLt; omega⟩

variable (x : (⟨2, ![8192, 2048]⟩ : Shape).Idx → EReal) (w : (⟨1, ![1024]⟩ : Shape).Idx → EReal)

/-- `p k`: the product of the two halves' entries at column `k` of row `r`. -/
def halfProd (r : Fin 8192) (k : Fin 1024) : EReal := x (ix2 r (lo k)) * x (ix2 r (hi k))

/-- The head logit of row `r`: one less the row's sum of products. -/
def headLogit (r : Fin 8192) : EReal := Ideal.ofBits .f32 0x3F800000#32 - ∑ k : Fin 1024, halfProd x r k

/-- The tail logits of row `r`: each product times its weight. -/
def tailLogit (r : Fin 8192) (k : Fin 1024) : EReal := halfProd x r k * w (ix1 k)

/-- THE OUTPUT as one function of the inputs: entry (r, 0) the head of row `r`'s softmax, entry (r, k + 1) its
    `k`-th tail entry. -/
def softmaxRows : (⟨2, ![8192, 1025]⟩ : Shape).Idx → EReal := fun i =>
  Fin.cases (headOut (headLogit x (i 0)) (tailLogit x w (i 0))) (tailOut (headLogit x (i 0)) (tailLogit x w (i 0)))
    (⟨(i 1).val, (i 1).isLt⟩ : Fin (1024 + 1))

/-- The word both programs start a row's running maximum from is `-∞`. -/
theorem ofBits_neg_inf : Ideal.ofBits .f32 0xFF800000#32 = ⊥ := by simp [Ideal.ofBits, Ideal.ieee]

/-! ## Real inputs give real logits -/

/-- A finite sum of real numbers is a real number. -/
theorem sum_real {ι : Type} (s : Finset ι) (f : ι → EReal) (h : ∀ i ∈ s, ∃ a : ℝ, f i = a) :
    ∃ a : ℝ, ∑ i ∈ s, f i = a :=
  Finset.sum_induction f (fun e => ∃ a : ℝ, e = a)
    (fun u v hu hv => by
      obtain ⟨a, rfl⟩ := hu; obtain ⟨b, rfl⟩ := hv; exact ⟨a + b, (EReal.coe_add a b).symm⟩)
    ⟨0, EReal.coe_zero.symm⟩ h

variable {x w}

theorem halfProd_real (hx : ∀ i, ∃ a : ℝ, x i = a) (r : Fin 8192) (k : Fin 1024) : ∃ a : ℝ, halfProd x r k = a := by
  obtain ⟨a, ha⟩ := hx (ix2 r (lo k)); obtain ⟨b, hb⟩ := hx (ix2 r (hi k))
  exact ⟨a * b, by unfold halfProd; rw [ha, hb, EReal.coe_mul]⟩

theorem headLogit_real (hx : ∀ i, ∃ a : ℝ, x i = a) (r : Fin 8192) : ∃ a : ℝ, headLogit x r = a := by
  obtain ⟨s, hs⟩ := sum_real Finset.univ (halfProd x r) fun k _ => halfProd_real hx r k
  exact ⟨1 - s, by unfold headLogit; rw [hs, Ideal.ofBits_one_f32, ← EReal.coe_one, ← EReal.coe_sub]⟩

theorem tailLogit_real (hx : ∀ i, ∃ a : ℝ, x i = a) (hw : ∀ k, ∃ a : ℝ, w k = a) (r : Fin 8192) (k : Fin 1024) :
    ∃ a : ℝ, tailLogit x w r k = a := by
  obtain ⟨a, ha⟩ := halfProd_real hx r k; obtain ⟨b, hb⟩ := hw (ix1 k)
  exact ⟨a * b, by unfold tailLogit; rw [ha, hb, EReal.coe_mul]⟩

theorem headLogit_ne_bot (hx : ∀ i, ∃ a : ℝ, x i = a) (r : Fin 8192) : headLogit x r ≠ ⊥ := by
  obtain ⟨a, ha⟩ := headLogit_real hx r; rw [ha]; exact EReal.coe_ne_bot a

theorem headLogit_ne_top (hx : ∀ i, ∃ a : ℝ, x i = a) (r : Fin 8192) : headLogit x r ≠ ⊤ := by
  obtain ⟨a, ha⟩ := headLogit_real hx r; rw [ha]; exact EReal.coe_ne_top a

theorem tailLogit_ne_top (hx : ∀ i, ∃ a : ℝ, x i = a) (hw : ∀ k, ∃ a : ℝ, w k = a) (r : Fin 8192) (k : Fin 1024) :
    tailLogit x w r k ≠ ⊤ := by
  obtain ⟨a, ha⟩ := tailLogit_real hx hw r k; rw [ha]; exact EReal.coe_ne_top a

end Cert.RowLogits

end
-- ==== Proof.ReferenceRows.lean ====
/-
  The reference, read row by row: its result array is the softmax of each row's logits.

  The reference slices the first input into its two halves, multiplies them, sums each row and subtracts the sum
  from one (the head logit); multiplies the products by the weights (the tail logits); joins head and tail along
  the columns into a row of 1025 logits; divides by a temperature of one; and takes the usual stable softmax of
  each row: the row maximum (taken once more against `-∞`), the exponentials of the differences, their sum from
  zero, and the quotient. Each stage is read at an index (r, j) with `r` a row and `j` a column; the joined row at
  column `0` is the head logit and at column `k + 1` tail logit `k`; the row maximum is the running maximum over
  the 1025 columns. What comes out is Proof/RowSoftmax.lean's joined arrangement of the row, which for real logits
  is the split arrangement (`joined_eq_split`) that Proof/RowLogits.lean's `softmaxRows` is made of.
-/
import proofs.«113813_g38981123178868_cont_8to1_b_1868_2_alg».proof.Proof.Gen.ReferenceIdeal.Read
import proofs.«113813_g38981123178868_cont_8to1_b_1868_2_alg».proof.Proof.RowLogits

noncomputable section

namespace Cert.ReferenceRows

open Idealize.ShloMosaic Idealize.ShloMosaic.ValueIdx Cert.ReferenceIdeal Cert.ReferenceIdeal.Gen Cert.ReferenceIdeal.Read
open Cert.RowSoftmax Cert.RowLogits

variable (x : FVec Ideal S8192x2048 .f32) (w : FVec Ideal S1024 .f32)

/-- Row `r`'s 1025 logits, head first. -/
def logitRow (r : Fin 8192) : Fin (1024 + 1) → EReal := Fin.cases (headLogit x r) (tailLogit x w r)

theorem logitRow_zero (r : Fin 8192) : logitRow x w r 0 = headLogit x r := rfl

theorem logitRow_succ (r : Fin 8192) : (fun k : Fin 1024 => logitRow x w r k.succ) = tailLogit x w r :=
  funext fun k => Fin.cases_succ k

/-! ## The two halves, their product, and the logits -/

theorem left_half (r : Fin 8192) (k : Fin 1024) : idx_main_v0 (ix2 r k) = ix2 r (lo k) := by
  funext a; match a with | ⟨0, _⟩ => rfl | ⟨1, _⟩ => rfl

theorem right_half (r : Fin 8192) (k : Fin 1024) : idx_main_v1 (ix2 r k) = ix2 r (hi k) := by
  funext a; match a with | ⟨0, _⟩ => rfl | ⟨1, _⟩ => rfl

/-- The product of the halves at (r, k). -/
theorem product_at (r : Fin 8192) (k : Fin 1024) : val_main_v2 (F := Ideal) x (ix2 r k) = halfProd x r k := by
  rw [val_main_v2_apply, val_main_v0_apply, val_main_v1_apply, left_half, right_half]; rfl

/-- One less the row's sum of products, kept as a column, is the head logit. -/
theorem head_at (r : Fin 8192) (u : Fin 1) : val_main_v6 (F := Ideal) x (ix2 r u) = headLogit x r := by
  rw [val_main_v6_apply, val_main_v5_apply, val_main_cst_0_apply, val_main_v4_apply, val_main_v3_apply,
    val_main_cst_apply]
  unfold headLogit
  simp only [Ideal.subf_def, Ideal.ofBits_def, Ideal.ofBits_zero_f32, zero_add]
  refine congrArg (_ - ·) (Finset.sum_congr rfl fun k _ => ?_)
  refine (congrArg (val_main_v2 (F := Ideal) x) ?_).trans (product_at x r k)
  funext a; match a with | ⟨0, _⟩ => rfl | ⟨1, _⟩ => rfl

/-- The product times the weight of its column is the tail logit. -/
theorem tail_at (r : Fin 8192) (k : Fin 1024) : val_main_v10 (F := Ideal) x w (ix2 r k) = tailLogit x w r k := by
  rw [val_main_v10_apply, val_main_v7_apply, val_main_v0_apply, val_main_v1_apply, val_main_v9_apply,
    val_main_v8_apply, left_half, right_half]
  have e : idx_main_v8 (idx_main_v9 (ix2 r k)) = ix1 k := funext fun a => by match a with | ⟨0, _⟩ => rfl
  rw [e]; rfl

/-! ## Head and tail joined along the columns -/

/-- Column `0` of the joined row is the head logit, column `k + 1` tail logit `k`. -/
theorem joined_at (r : Fin 8192) (j : Fin 1025) : val_main_v11 (F := Ideal) x w (ix2 r j) = logitRow x w r j := by
  unfold val_main_v11
  refine Fin.cases ?_ (fun k => ?_) j
  · refine (concatenate_pair_apply_left (t := S8192x1025) (s₁ := S8192x1) (s₂ := S8192x1024) (1 : Fin 2) _ _ _
      (ix2 r (0 : Fin 1025)) rfl (ix2 r (0 : Fin 1))
      (fun b => by match b with | ⟨0, _⟩ => rfl | ⟨1, _⟩ => rfl)).trans ?_
    exact head_at x r 0
  · refine (concatenate_pair_apply_right (t := S8192x1025) (s₁ := S8192x1) (s₂ := S8192x1024) (1 : Fin 2) _ _ _
      (ix2 r (k.succ : Fin 1025)) rfl rfl (ix2 r k)
      (fun b hb => by match b, hb with | ⟨0, _⟩, _ => rfl | ⟨1, _⟩, hb => exact absurd rfl hb)
      (by show k.val + 1 = (k.succ).val; rw [Fin.val_succ])).trans ?_
    exact (tail_at x w r k).trans (congrFun (logitRow_succ x w r) k).symm

/-- The joined row divided by the temperature one. -/
theorem scaled_at (r : Fin 8192) (j : Fin 1025) :
    val_main_v13 (F := Ideal) x w (ix2 r j) = Ideal.div (logitRow x w r j) 1 := by
  rw [val_main_v13_apply, val_main_v12_apply, val_main_cst_1_apply, joined_at]
  simp only [Ideal.hostDivf_def, Ideal.ofBits_def, Ideal.ofBits_one_f32]

/-! ## The row maximum, the exponentials, their sum -/

/-- A row index with column `k` put back is (r, k). -/
theorem lift_row (h : S8192x1025.Reduces [1] S8192) (r : Fin 8192) (k : Fin (S8192x1025.size 1)) :
    h.lift (ix1 r) k = ix2 r (⟨k.val, k.isLt⟩ : Fin 1025) := by
  funext c; apply Fin.ext
  fin_cases c <;> rfl

/-- The row maximum is the running maximum from `-∞` over the 1025 scaled logits, taken once more against `-∞`. -/
theorem max_at (r : Fin 8192) :
    val_main_v16 (F := Ideal) x w (ix1 r)
      = max ⊥ ((Finset.univ : Finset (Fin (1024 + 1))).fold max ⊥ fun j => Ideal.div (logitRow x w r j) 1) := by
  have hR : S8192x1025.Reduces [1] S8192 := by decide
  rw [val_main_v16_apply, val_main_v15_apply, val_main_cst_3_apply]
  unfold val_main_v14
  rw [Host.reduce_eq_fold_single FloatOps.maximumf _ _ reducesTo_S8192x1025_S8192_d1 hR h_S_]
  show max (Ideal.ofBits .f32 0xFF800000#32) ((Finset.univ : Finset (Fin (1024 + 1))).fold max
    (Ideal.ofBits .f32 0xFF800000#32) fun j => val_main_v13 (F := Ideal) x w (hR.lift (ix1 r) j)) = _
  rw [ofBits_neg_inf]
  refine congrArg (max ⊥) (Finset.fold_congr fun j _ => ?_)
  rw [lift_row]
  exact scaled_at x w r _

/-- The exponential of a scaled logit less its row's maximum. -/
theorem exp_at (r : Fin 8192) (j : Fin 1025) :
    val_main_v20 (F := Ideal) x w (ix2 r j)
      = Ideal.exp (Ideal.div (logitRow x w r j) 1 - val_main_v16 (F := Ideal) x w (ix1 r)) := by
  rw [val_main_v20_apply, val_main_v19_apply, scaled_at, val_main_v18_apply, val_main_v17_apply]
  have e : idx_main_v17 (idx_main_v18 (ix2 r j)) = ix1 r := funext fun a => by match a with | ⟨0, _⟩ => rfl
  rw [e]
  rfl

/-- The row's sum of exponentials, from zero. -/
theorem sum_at (r : Fin 8192) :
    val_main_v21 (F := Ideal) x w (ix1 r)
      = 0 + ∑ j : Fin (1024 + 1), Ideal.exp (Ideal.div (logitRow x w r j) 1 - val_main_v16 (F := Ideal) x w (ix1 r)) := by
  rw [val_main_v21_apply, val_main_cst_4_apply]
  simp only [Ideal.ofBits_def, Ideal.ofBits_zero_f32]
  refine congrArg (0 + ·) (Finset.sum_congr rfl fun j _ => ?_)
  refine (congrArg (val_main_v20 (F := Ideal) x w) ?_).trans (exp_at x w r j)
  funext a; match a with | ⟨0, _⟩ => rfl | ⟨1, _⟩ => rfl

/-! ## The reference's result -/

/-- For real inputs the reference's result array is `softmaxRows` of the inputs. -/
theorem result_eq (hx : ∀ i, ∃ a : ℝ, x i = a) (hw : ∀ k, ∃ a : ℝ, w k = a) :
    val_main_v24 (F := Ideal) x w = softmaxRows x w := by
  funext i
  obtain ⟨r, j, rfl⟩ : ∃ (r : Fin 8192) (j : Fin 1025), i = ix2 r j := ⟨i 0, i 1, eq_ix2 i⟩
  rw [val_main_v24_apply, exp_at, val_main_v23_apply, val_main_v22_apply]
  have e : idx_main_v22 (idx_main_v23 (ix2 r j)) = ix1 r := funext fun a => by match a with | ⟨0, _⟩ => rfl
  rw [e]
  have h := joined_eq_split (logitRow x w r) (headLogit_ne_bot hx r) (headLogit_ne_top hx r)
    (fun k => ne_of_eq_of_ne (congrFun (logitRow_succ x w r) k) (tailLogit_ne_top hx hw r k)) _ _
    (max_at x w r) (sum_at x w r) j
  refine Eq.trans h ?_
  rw [logitRow_succ]
  rfl

end Cert.ReferenceRows

end
-- ==== Proof.LibKeepdims.lean ====
/-
  A row reduction kept as a column (`keepdims=True`): the two layout operations around it, read at an index.

  A kernel that reduces a `[a, b]` block along its rows' entries gets an `[a]` vector, views it as an `[a, 1]`
  column, and later spreads the column back over the `b` entries of each row. Read at an index, the view changes
  nothing (entry `(i, 0)` of the column is entry `i` of the vector) and the spreading repeats the column's entry
  along the row (entry `(i, j)` of the spread array is entry `(i, 0)` of the column). Stated over any extents
  `a`, `b` and any element type; indices are built with the literal-size constructors `ix1`, `ix2`.
-/
import Idealize.ShloMosaic.Lib.ValueLayout

namespace Cert.LibKeepdims

open Idealize.ShloMosaic Idealize.ShloMosaic.ValueIdx

variable {α : Type}

/-- An `[a]` array cast to a column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelRows.lean ====
/-
  The kernel body's arithmetic on one block, read at an index.

  The body works on a block of 512 input rows `x0` (2048 entries each) and the one row of 1024 weights `x1`. Per
  row `a` it forms the products `p k` of the row's two halves, the head logit `1 - Σ k, p k` (a row sum kept as a
  column), the tail logits `p k * weight k`, the row maximum (the tail's maximum kept as a column, against the
  head), the exponentials of head and tail less that maximum, the reciprocal of their sum, and stores two pieces:
  the head's exponential times the reciprocal into column 0, the tail's into columns 1 … 1024. Each intermediate
  value is one named term of the block; here each is read at a row (and a column) and found to be the matching
  quantity of Proof/RowSoftmax.lean's split arrangement for that row's logits.
-/
import proofs.«113813_g38981123178868_cont_8to1_b_1868_2_alg».proof.Proof.Gen.KernelIdeal.Skeleton
import proofs.«113813_g38981123178868_cont_8to1_b_1868_2_alg».proof.Proof.RowLogits
import proofs.«113813_g38981123178868_cont_8to1_b_1868_2_alg».proof.Proof.LibKeepdims
import Idealize.ShloMosaic.PureOps.Ideal.Laws
import Idealize.ShloMosaic.Lib.ValueLayout

noncomputable section

namespace Cert.KernelRows

open Idealize.ShloMosaic Idealize.ShloMosaic.ValueIdx Cert.KernelIdeal Cert.KernelIdeal.Gen
open Cert.RowSoftmax Cert.RowLogits Cert.LibKeepdims

/-! ## A row reduction kept as a column, at row `a` -/

/-- The row of a reduced index with column `k` put back. -/
theorem lift_row (h : S512x1024.Reduces [1] S512) (a : Fin 512) (k : Fin (S512x1024.size 1)) :
    h.lift (ix1 a) k = ix2 a (⟨k.val, k.isLt⟩ : Fin 1024) := by
  funext c; apply Fin.ext
  fin_cases c <;> rfl

/-- A row sum kept as a column: at row `a`, the sum of the row's 1024 entries. -/
theorem rowSum_col (src : FVec Ideal S512x1024 .f32) (h : S512x1024.Reduces [1] S512) (hφ : FKind.Formats .f32)
    (hacc : (0x00000000#32 : BitVec 32) = FKind.add.neutral .f32 hφ) (hc : S512.ShapeCasts S512x1)
    (a : Fin 512) (u : Fin 1) :
    shapeCast S512x1 (multiReduction .add [1] S512 src 0x00000000#32 h hφ hacc) hc (ix2 a u)
      = ∑ k : Fin 1024, src (ix2 a k) := by
  refine (shapeCast_a_a1_apply _ hc a u).trans ?_
  refine (Ideal.multiReduction_add_single src 0x00000000#32 h hφ hacc (ix1 a)).trans ?_
  exact Finset.sum_congr rfl fun k _ => congrArg src (lift_row h a k)

/-- A row maximum kept as a column: at row `a`, the running maximum from `-∞` over the row's 1024 entries. -/
theorem rowMax_col (src : FVec Ideal S512x1024 .f32) (h : S512x1024.Reduces [1] S512) (hφ : FKind.Formats .f32)
    (hacc : (0xFF800000#32 : BitVec 32) = FKind.maximumf.neutral .f32 hφ) (hc : S512.ShapeCasts S512x1)
    (a : Fin 512) (u : Fin 1) :
    shapeCast S512x1 (multiReduction .maximumf [1] S512 src 0xFF800000#32 h hφ hacc) hc (ix2 a u)
      = (Finset.univ : Finset (Fin 1024)).fold max ⊥ fun k => src (ix2 a k) := by
  refine (shapeCast_a_a1_apply _ hc a u).trans ?_
  refine (Ideal.multiReduction_maximumf_single src 0xFF800000#32 h hφ hacc (ix1 a)).trans ?_
  show (Finset.univ : Finset (Fin 1024)).fold max (Ideal.ofBits .f32 0xFF800000#32) (fun k => src (h.lift (ix1 a) k)) = _
  rw [ofBits_neg_inf]
  exact Finset.fold_congr fun k _ => congrArg src (lift_row h a k)

/-! ## One block's rows -/

variable (x0 : FVec Ideal S512x2048 .f32) (x1 : FVec Ideal S1x1024 .f32)

/-- The product of the two halves of block row `a` at column `k`. -/
def blockProd (a : Fin 512) (k : Fin 1024) : EReal := x0 (ix2 a (lo k)) * x0 (ix2 a (hi k))

/-- Block row `a`'s head logit. -/
def blockHead (a : Fin 512) : EReal := Ideal.ofBits .f32 0x3F800000#32 - ∑ k : Fin 1024, blockProd x0 a k

/-- Block row `a`'s tail logits. -/
def blockTail (a : Fin 512) (k : Fin 1024) : EReal := blockProd x0 a k * x1 (ix2 (0 : Fin 1) k)

/-- The products of the halves. -/
theorem prod_at (a : Fin 512) (k : Fin 1024) : k0_pay1 (F := Ideal) x0 (ix2 a k) = blockProd x0 a k := by
  unfold k0_pay1 blockProd
  exact congrArg₂ (· * ·) (slice2_axis1_apply 0 x0 _ a k (lo k) (Nat.zero_add _).symm)
    (slice2_axis1_apply 1024 x0 _ a k (hi k) rfl)

/-- One less the row sum of the products, as a column: the head logit. -/
theorem head_at (a : Fin 512) (u : Fin 1) : k0_pay2 (F := Ideal) x0 (ix2 a u) = blockHead x0 a := by
  unfold k0_pay2 blockHead
  exact congrArg₂ (· - ·) rfl
    ((rowSum_col (k0_pay1 (F := Ideal) x0) _ _ _ _ a u).trans (Finset.sum_congr rfl fun k _ => prod_at x0 a k))

/-- The products times the weights' one row spread over the block: the tail logits. -/
theorem tail_at (a : Fin 512) (k : Fin 1024) : k0_pay3 (F := Ideal) x0 x1 (ix2 a k) = blockTail x0 x1 a k := by
  unfold k0_pay3 blockTail
  refine congrArg₂ (· * ·) (prod_at x0 a k) ?_
  refine (broadcastTo_1b_ab_apply _ _ a k).trans ?_
  exact congrFun (shapeCast_self x1 _) _

/-- The tail's row maximum as a column, against the head: the row maximum. -/
theorem max_at (a : Fin 512) (u : Fin 1) :
    k0_pay4 (F := Ideal) x0 x1 (ix2 a u) = rowMax (blockHead x0 a) (blockTail x0 x1 a) := by
  unfold k0_pay4 rowMax
  exact congrArg₂ max
    ((rowMax_col (k0_pay3 (F := Ideal) x0 x1) _ _ _ _ a u).trans (Finset.fold_congr fun k _ => tail_at x0 x1 a k))
    (head_at x0 a u)

/-- The head's exponential. -/
theorem headExp_at (a : Fin 512) (u : Fin 1) :
    k0_pay5 (F := Ideal) x0 x1 (ix2 a u)
      = Ideal.exp (blockHead x0 a - rowMax (blockHead x0 a) (blockTail x0 x1 a)) := by
  unfold k0_pay5
  exact congrArg Ideal.exp (congrArg₂ (· - ·) (head_at x0 a u) (max_at x0 x1 a u))

/-- The tail's exponentials: the row maximum's column is spread over the row first. -/
theorem tailExp_at (a : Fin 512) (k : Fin 1024) :
    k0_pay6 (F := Ideal) x0 x1 (ix2 a k)
      = Ideal.exp (blockTail x0 x1 a k - rowMax (blockHead x0 a) (blockTail x0 x1 a)) := by
  unfold k0_pay6
  exact congrArg Ideal.exp (congrArg₂ (· - ·) (tail_at x0 x1 a k)
    ((broadcastTo_a1_ab_apply _ _ a k).trans (max_at x0 x1 a 0)))

/-- The reciprocal of the normalizer: one over the head's exponential plus the row sum of the tail's. -/
theorem recip_at (a : Fin 512) (u : Fin 1) :
    k0_pay7 (F := Ideal) x0 x1 (ix2 a u) = Ideal.div 1 (rowDen (blockHead x0 a) (blockTail x0 x1 a)) := by
  unfold k0_pay7 rowDen
  exact congrArg₂ Ideal.div Ideal.ofBits_one_f32
    (congrArg₂ (· + ·) (headExp_at x0 x1 a u)
      ((rowSum_col (k0_pay6 (F := Ideal) x0 x1) _ _ _ _ a u).trans (Finset.sum_congr rfl fun k _ => tailExp_at x0 x1 a k)))

/-- THE FIRST STORED PIECE: the head entry of the row's softmax. -/
theorem headPiece_at (a : Fin 512) (u : Fin 1) :
    k0_pay8 (F := Ideal) x0 x1 (ix2 a u) = headOut (blockHead x0 a) (blockTail x0 x1 a) := by
  unfold k0_pay8 headOut
  exact congrArg₂ (· * ·) (headExp_at x0 x1 a u) (recip_at x0 x1 a u)

/-- THE SECOND STORED PIECE: the tail entries; the reciprocal's column is spread over the row first. -/
theorem tailPiece_at (a : Fin 512) (k : Fin 1024) :
    k0_pay9 (F := Ideal) x0 x1 (ix2 a k) = tailOut (blockHead x0 a) (blockTail x0 x1 a) k := by
  unfold k0_pay9 tailOut
  exact congrArg₂ (· * ·) (tailExp_at x0 x1 a k) ((broadcastTo_a1_ab_apply _ _ a k).trans (recip_at x0 x1 a 0))

end Cert.KernelRows

end
-- ==== Proof.KernelBlock.lean ====
/-
  What one grid point leaves in the output's staging buffer, as ONE function of the point's input block.

  The body stores two pieces into the [512, 1025] buffer: the head entries into column 0 and the tail entries
  into columns 1 … 1024. Together they cover the buffer, so reading the buffer back gives, at (a, 0), the head
  piece at row `a`, and at (a, k + 1) the tail piece at (a, k): the softmax of block row `a`'s 1025 logits, head
  first (Proof/KernelRows.lean reads the two pieces). A piece's local index (a, j) sits in the buffer at
  (a, j) shifted by the piece's column offset.
-/
import proofs.«113813_g38981123178868_cont_8to1_b_1868_2_alg».proof.Proof.Gen.KernelIdeal.Frame
import proofs.«113813_g38981123178868_cont_8to1_b_1868_2_alg».proof.Proof.KernelRows
import Idealize.ShloMosaic.Lib.Pipeline.Value

set_option maxRecDepth 16384

noncomputable section

namespace Cert.KernelBlock

open Cert.KernelIdeal Cert.KernelIdeal.Gen
open Idealize.ShloMosaic Idealize.ShloMosaic.TcCoe Idealize.ShloMosaic.Tactic Idealize.ShloMosaic.ValueIdx
open Idealize.SL Idealize.SL.Sem
open Cert.RowSoftmax Cert.KernelRows

section Block

variable (x0 : FVec Ideal S512x2048 .f32) (x1 : FVec Ideal S1x1024 .f32)

/-- The buffer after the body: row `a` holds the softmax of block row `a`'s logits, head first. -/
def blockOut : S512x1025.Idx → EReal := fun y =>
  Fin.cases (headOut (blockHead x0 (y 0)) (blockTail x0 x1 (y 0))) (tailOut (blockHead x0 (y 0)) (blockTail x0 x1 (y 0)))
    (⟨(y 1).val, (y 1).isLt⟩ : Fin (1024 + 1))

/-- At column 0 of row `a` it is the head entry. -/
theorem blockOut_head (a : Fin 512) (y : S512x1025.Idx) (h0 : (y 0).val = a.val) (h1 : (y 1).val = 0) :
    blockOut x0 x1 y = headOut (blockHead x0 a) (blockTail x0 x1 a) := by
  obtain ⟨a', j, rfl⟩ : ∃ (a' : Fin 512) (j : Fin 1025), y = ix2 a' j := ⟨y 0, y 1, eq_ix2 y⟩
  obtain rfl : a' = a := Fin.ext h0
  obtain rfl : j = (0 : Fin (1024 + 1)) := Fin.ext h1
  rfl

/-- At column `k + 1` of row `a` it is tail entry `k`. -/
theorem blockOut_tail (a : Fin 512) (k : Fin 1024) (y : S512x1025.Idx) (h0 : (y 0).val = a.val)
    (h1 : (y 1).val = k.val + 1) : blockOut x0 x1 y = tailOut (blockHead x0 a) (blockTail x0 x1 a) k := by
  obtain ⟨a', j, rfl⟩ : ∃ (a' : Fin 512) (j : Fin 1025), y = ix2 a' j := ⟨y 0, y 1, eq_ix2 y⟩
  obtain rfl : a' = a := Fin.ext h0
  obtain rfl : j = k.succ := Fin.ext h1
  exact Fin.cases_succ k

end Block

/-- The zero offsets of a load of a whole buffer. -/
theorem zeros : (![0, 0] : Fin 2 → Nat) = fun _ => 0 := funext fun a => by fin_cases a <;> rfl

/-- THE BLOCK: the two stored pieces, read back, are `blockOut` of the loaded block and weights. -/
theorem block_eq (c : Dev nD) (i : grid0.Coords) (a1 : Memref sig .tc .vmem S512x2048 .f32) (h1 : a1.IsWhole)
    (a2 : Memref sig .tc .vmem S1x1024 .f32) (h2 : a2.IsWhole) (a3 : Memref sig .tc .vmem S512x1025 .f32) (h3 : a3.IsWhole)
    (x0 : Vec Ideal S512x2048 .f32) (x1 : Vec Ideal S1x1024 .f32) :
    out0_A_2 (F := Ideal) c i a1 h1 a2 h2 a3 h3 x0 x1 = blockOut x0 x1 := by
  unfold out0_A_2
  rw [View.read_writes_eq_canon _ _ _ (cover0_A_2 c i a1 h1 a2 h2 a3 h3 x0 x1)]
  funext y
  refine View.canon_apply_of_pieces (blockOut x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S512x2048) zeros,
    View.ld_unit_zero (S := S1x1024) zeros]
  intro p hp
  rcases List.mem_cons.mp hp with rfl | hp
  · intro x
    obtain ⟨a, k, rfl⟩ : ∃ (a : Fin 512) (k : Fin 1024), x = ix2 a k := ⟨x 0, x 1, eq_ix2 x⟩
    refine (tailPiece_at x0 x1 a k).trans (blockOut_tail x0 x1 a k _ ?_ ?_).symm
    · show 0 + 1 * a.val = a.val; omega
    · show 1 + 1 * k.val = k.val + 1; omega
  · obtain rfl := List.mem_singleton.mp hp
    intro x
    obtain ⟨a, u, rfl⟩ : ∃ (a : Fin 512) (u : Fin 1), x = ix2 a u := ⟨x 0, x 1, eq_ix2 x⟩
    refine (headPiece_at x0 x1 a u).trans (blockOut_head x0 x1 a _ ?_ ?_).symm
    · show 0 + 1 * a.val = a.val; omega
    · show 0 + 1 * u.val = 0; omega

end Cert.KernelBlock

end
-- ==== Proof.KernelArray.lean ====
/-
  From the blocks to the whole output array.

  The grid has 16 points; point `t` is handed rows 512·t … 512·t + 511 of the first input (all 2048 columns), the
  whole row of 1024 weights (the second input viewed as one row), and writes back rows 512·t … 512·t + 511 of the
  output (all 1025 columns). So block row `a` of point `t` IS array row 512·t + a: its logits are that array row's
  logits, and what the point writes back is the matching block of `softmaxRows` of the two inputs. Every output row
  `r` lies in the block of point `r / 512`, so the 16 blocks cover the array and the array ends at `softmaxRows`.
-/
import proofs.«113813_g38981123178868_cont_8to1_b_1868_2_alg».proof.Proof.Gen.KernelIdeal.Value
import proofs.«113813_g38981123178868_cont_8to1_b_1868_2_alg».proof.Proof.KernelBlock
import Idealize.ShloMosaic.Lib.StableHlo.Run

noncomputable section

namespace Cert.KernelArray

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.RowSoftmax Cert.RowLogits Cert.KernelRows Cert.KernelBlock

variable (m : (ℓ : Loc nD τ sig) → Buf (Elt Ideal) ℓ) (ρ : Dev nD → PrngReg)

/-- The two inputs as launched. -/
abbrev xArr (c : Dev nD) : FVec Ideal S8192x2048 .f32 := m ((c : Thread nD τ).loc main_arg0)
abbrev wArr (c : Dev nD) : FVec Ideal S1024 .f32 := m ((c : Thread nD τ).loc main_arg1)

/-- What point `t` is handed: its block of input rows, and the weights' one row. -/
abbrev xBlk (c : Dev nD) (t : Fin cfg0.N) : FVec Ideal S512x2048 .f32 := iblk m c 0 t
abbrev wBlk (c : Dev nD) (t : Fin cfg0.N) : FVec Ideal S1x1024 .f32 := iblk m c 1 t

/-- The printed index maps, decided over the 16 points: the input and output blocks move down the rows with the
    point, the weights' block stays. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block row `a` of point `t` as a row of the array. -/
def arrRow (t : Fin cfg0.N) (a : Fin 512) : Fin 8192 :=
  ⟨512 * t.val + a.val, by have hN : cfg0.N = 16 := N_0; have := t.isLt; have := a.isLt; omega⟩

/-! ## The blocks read off the arrays -/

/-- Entry (a, j) of point `t`'s input block is entry (512·t + a, j) of the first input. -/
theorem xBlk_at (c : Dev nD) (t : Fin cfg0.N) (a : Fin 512) (j : Fin 2048) :
    xBlk m c t (ix2 a j) = xArr m c (ix2 (arrRow t a) j) := by
  show V m c main_arg0 (((cfg0.win 0).blk t).view.emb (ix2 a j)) = m ((c : Thread nD τ).loc main_arg0) (ix2 (arrRow t a) j)
  rw [V_main_arg0]
  refine congrArg _ ?_
  funext ax; apply Fin.ext
  obtain ⟨e0, e1, -⟩ := block_index t
  match ax with
  | ⟨0, _⟩ => show win0_0.index t (0 : Fin 2) * 512 + 1 * a.val = 512 * t.val + a.val; omega
  | ⟨1, _⟩ => show win0_0.index t (1 : Fin 2) * 2048 + 1 * j.val = j.val; omega

/-- The weights' window holds the second input viewed as one row of 1024. -/
theorem weights_entry (c : Dev nD) :
    (V m c main_v0 : S1x1024.Idx → EReal) = shapeCast S1x1024 (wArr m c) shapeCasts_S1024_S1x1024 := by
  dsimp only [V, hostOps0]; after_results; rfl

/-- Entry (0, k) of the weights' block is weight `k`. -/
theorem wBlk_at (c : Dev nD) (t : Fin cfg0.N) (k : Fin 1024) : wBlk m c t (ix2 (0 : Fin 1) k) = wArr m c (ix1 k) := by
  show V m c main_v0 (((cfg0.win 1).blk t).view.emb (ix2 (0 : Fin 1) k)) = _
  have e : ((cfg0.win 1).blk t).view.emb (ix2 (0 : Fin 1) k) = ix2 (0 : Fin 1) k := by
    funext ax; apply Fin.ext
    obtain ⟨-, -, e2, e3, -⟩ := block_index t
    match ax with
    | ⟨0, _⟩ => show win0_1.index t (0 : Fin 2) * 1 + 1 * 0 = 0; omega
    | ⟨1, _⟩ => show win0_1.index t (1 : Fin 2) * 1024 + 1 * k.val = k.val; omega
  rw [e, weights_entry]
  exact shapeCast_a_1a_apply _ _ 0 k

/-- So block row `a`'s head logit is array row 512·t + a's, -/
theorem blockHead_eq (c : Dev nD) (t : Fin cfg0.N) (a : Fin 512) :
    blockHead (xBlk m c t) a = headLogit (xArr m c) (arrRow t a) := by
  unfold blockHead headLogit
  refine congrArg (_ - ·) (Finset.sum_congr rfl fun k _ => ?_)
  unfold blockProd halfProd
  rw [xBlk_at, xBlk_at]

/-- and its tail logits are that array row's. -/
theorem blockTail_eq (c : Dev nD) (t : Fin cfg0.N) (a : Fin 512) :
    blockTail (xBlk m c t) (wBlk m c t) a = tailLogit (xArr m c) (wArr m c) (arrRow t a) := by
  funext k
  unfold blockTail tailLogit blockProd halfProd
  rw [xBlk_at, xBlk_at, wBlk_at]

/-! ## What a point writes back, and the cover -/

/-- WHAT POINT `t` WRITES BACK is block `t` of `softmaxRows` of the two inputs. -/
theorem flushed_eq (c : Dev nD) (t : Fin cfg0.N) :
    (dats m 0 c).flushed 2 t = ((cfg0.win 2).blk t).view.read (Elt Ideal) (softmaxRows (xArr m c) (wArr m c)) := by
  rw [Cert.KernelIdeal.Value.flushed2_A, block_eq]
  funext y
  show blockOut (xBlk m c t) (wBlk m c t) y = softmaxRows (xArr m c) (wArr m c) (((cfg0.win 2).blk t).view.emb y)
  obtain ⟨a, j, rfl⟩ : ∃ (a : Fin 512) (j : Fin 1025), y = ix2 a j := ⟨y 0, y 1, eq_ix2 y⟩
  have e : ((cfg0.win 2).blk t).view.emb (ix2 a j) = ix2 (arrRow t a) j := by
    funext ax; apply Fin.ext
    obtain ⟨-, -, -, -, e4, e5⟩ := block_index t
    match ax with
    | ⟨0, _⟩ => show win0_2.index t (0 : Fin 2) * 512 + 1 * a.val = 512 * t.val + a.val; omega
    | ⟨1, _⟩ => show win0_2.index t (1 : Fin 2) * 1025 + 1 * j.val = j.val; omega
  rw [e]
  show Fin.cases (motive := fun _ => EReal) (headOut (blockHead (xBlk m c t) a) (blockTail (xBlk m c t) (wBlk m c t) a))
      (tailOut (blockHead (xBlk m c t) a) (blockTail (xBlk m c t) (wBlk m c t) a)) (⟨j.val, j.isLt⟩ : Fin (1024 + 1))
    = Fin.cases (motive := fun _ => EReal) (headOut (headLogit (xArr m c) (arrRow t a)) (tailLogit (xArr m c) (wArr m c) (arrRow t a)))
      (tailOut (headLogit (xArr m c) (arrRow t a)) (tailLogit (xArr m c) (wArr m c) (arrRow t a))) (⟨j.val, j.isLt⟩ : Fin (1024 + 1))
  rw [blockHead_eq, blockTail_eq]

/-- An index of the output is in point `t`'s block iff each coordinate is in the block's range on its axis. -/
theorem mem_block (t : Fin cfg0.N) (i : S8192x1025.Idx) :
    i ∈ ((cfg0.win 2).blk t).view.set ↔ ∀ a : Fin 2, win0_2.index t a * S512x1025.size a ≤ (i a).val
      ∧ (i a).val < win0_2.index t a * S512x1025.size a + S512x1025.size a := by
  show i ∈ ((View.whole main_v1).slice (win0_2.rect t)).set ↔ _
  rw [View.set_slice_whole, Rect.mem_set_unit]
  exact Iff.rfl

/-- Every output index is in some point's block: row `r` in the block of point `r / 512`. -/
theorem covered (i : S8192x1025.Idx) :
    ∃ t : Fin cfg0.N, (cfg0.win 2).flush t = true ∧ i ∈ ((cfg0.win 2).blk t).view.set := by
  have hi0 : (i 0).val < 8192 := (i 0).isLt
  have hi1 : (i 1).val < 1025 := (i 1).isLt
  have hN : cfg0.N = 16 := N_0
  have ht : (i 0).val / 512 < cfg0.N := by rw [hN]; omega
  obtain ⟨-, -, -, -, e4, e5⟩ := block_index ⟨(i 0).val / 512, ht⟩
  have e4' : win0_2.index ⟨(i 0).val / 512, ht⟩ (0 : Fin 2) = (i 0).val / 512 := e4
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 1025 ≤ (i 1).val
      ∧ (i 1).val < win0_2.index ⟨(i 0).val / 512, ht⟩ (1 : Fin 2) * 1025 + 1025
    omega

/-! ## The array and the run -/

/-- THE OUTPUT ARRAY after the run is `softmaxRows` of the two inputs. -/
theorem final (c : Dev nD) : (dats m 0 c).arrAt 2 cfg0.N = softmaxRows (xArr m c) (wArr m c) :=
  (dats m 0 c).arrAt_eq_of_cover 2 (softmaxRows (xArr m c) (wArr m c)) (fun t _ => flushed_eq m c t) covered

/-- The kernel's run re-posted: the result array at `softmaxRows` of the inputs, the inputs unchanged. -/
theorem run : θ_run defs (onTc (τ := τ) (main (F := Ideal))) ⟨m, fun _ => 0, ρ⟩ fun r => ∀ c : Dev nD,
      r.2.mem ((c : Thread nD τ).loc main_v1) = softmaxRows (xArr m c) (wArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelArray

end
-- ==== Proof.lean ====
/-
  The kernel and its reference compute the same array, over the extended reals, for finite inputs.

  THE COMPUTATION. The first input has 8192 rows of 2048 entries, read as a left half Q and a right half Y; the
  second is 1024 weights w. Per row, with p k = Q k · Y k: a head logit 1 − Σ k, p k and 1024 tail logits
  p k · w k; the output row is the softmax of those 1025 logits, head first.

  THE TWO PROGRAMS. The reference joins head and tail into one row of 1025 logits, divides it by a temperature of
  one, and takes the stable softmax of the row: maximum, exponentials of the differences, their sum, quotient. The
  kernel handles 512 rows per grid point and never joins head and tail: it takes the tail's maximum against the
  head, exponentiates both, forms the reciprocal of (head's exponential + the tail's sum) once per row, and stores
  the head's exponential times the reciprocal into column 0 and the tail's into columns 1 … 1024.

  WHY THEY AGREE. Division by one is the identity; maximum and sum are commutative and associative, so the row
  maximum and the normalizer are the same in both arrangements, infinities or not. The quotient a / S is the
  product a · (1 / S) exactly when S ≠ 0. For finite inputs every logit is a real number, the row maximum is
  below +∞, the head's exponential is positive and the others are not negative, so S > 0
  (Proof/RowSoftmax.lean, `joined_eq_split`). This is where the precondition is used, and it is needed: at S = 0
  the two sides are different junk values.

  THE PIECES. Proof/RowSoftmax.lean: one row's softmax in both arrangements, and the law between them.
  Proof/RowLogits.lean: the logits as functions of the inputs, the output as one function `softmaxRows`, real
  inputs give real logits. Proof/FiniteInputs.lean: the precondition makes every input entry real.
  Proof/ReferenceRows.lean: the reference's result is `softmaxRows`. Proof/LibKeepdims.lean,
  Proof/KernelRows.lean, Proof/KernelBlock.lean, Proof/KernelArray.lean: the kernel body's values on a block, the
  block as one function, and the 16 blocks covering the array, which therefore ends at `softmaxRows` too.
  The three frames are the generated frame runs; the idealization rewrote nothing, so `preserves` is trivial.
-/
import proofs.«113813_g38981123178868_cont_8to1_b_1868_2_alg».proof.Defs
import proofs.«113813_g38981123178868_cont_8to1_b_1868_2_alg».proof.Proof.Gen.Kernel
import proofs.«113813_g38981123178868_cont_8to1_b_1868_2_alg».proof.Proof.Gen.Kernel.Skeleton
import proofs.«113813_g38981123178868_cont_8to1_b_1868_2_alg».proof.Proof.Gen.Kernel.Launch
import proofs.«113813_g38981123178868_cont_8to1_b_1868_2_alg».proof.Proof.Gen.Kernel.Points
import proofs.«113813_g38981123178868_cont_8to1_b_1868_2_alg».proof.Proof.Gen.Kernel.Frame
import proofs.«113813_g38981123178868_cont_8to1_b_1868_2_alg».proof.Proof.Gen.KernelIdeal
import proofs.«113813_g38981123178868_cont_8to1_b_1868_2_alg».proof.Proof.Gen.KernelIdeal.Skeleton
import proofs.«113813_g38981123178868_cont_8to1_b_1868_2_alg».proof.Proof.Gen.KernelIdeal.Launch
import proofs.«113813_g38981123178868_cont_8to1_b_1868_2_alg».proof.Proof.Gen.KernelIdeal.Points
import proofs.«113813_g38981123178868_cont_8to1_b_1868_2_alg».proof.Proof.Gen.KernelIdeal.Frame
import proofs.«113813_g38981123178868_cont_8to1_b_1868_2_alg».proof.Proof.Gen.ReferenceIdeal
import proofs.«113813_g38981123178868_cont_8to1_b_1868_2_alg».proof.Proof.Gen.Pre_finite_inputs
import proofs.«113813_g38981123178868_cont_8to1_b_1868_2_alg».proof.Proof.Gen.KernelIdeal.Value
import proofs.«113813_g38981123178868_cont_8to1_b_1868_2_alg».proof.Proof.Gen.ReferenceIdeal.Run
import proofs.«113813_g38981123178868_cont_8to1_b_1868_2_alg».proof.Proof.Gen.ReferenceIdeal.Read
import proofs.«113813_g38981123178868_cont_8to1_b_1868_2_alg».proof.Proof.FiniteInputs
import proofs.«113813_g38981123178868_cont_8to1_b_1868_2_alg».proof.Proof.ReferenceRows
import proofs.«113813_g38981123178868_cont_8to1_b_1868_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at `softmaxRows` of the inputs: the kernel block by block, the reference stage by stage and,
    the inputs being finite, by the law between the two arrangements of a row's softmax. -/
theorem algebraic : Cert.algebraic_KernelIdeal_ReferenceIdeal := by
  intro m ρ m' ρ' hpre hagree
  refine ⟨fun c => Cert.RowLogits.softmaxRows (Cert.KernelArray.xArr m c) (Cert.KernelArray.wArr m c),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.reals_of_pre _ _ (hpre c)
  rw [Cert.ReferenceIdeal.Read.val_main_v24_eq, (hagree c).1, (hagree c).2]
  exact Cert.ReferenceRows.result_eq _ _ hx hw

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
